-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S96x16x512 : Shape := ⟨3, ![96, 16, 512]⟩
abbrev S512x1024 : Shape := ⟨2, ![512, 1024]⟩
abbrev S512 : Shape := ⟨1, ![512]⟩
abbrev S_ : Shape := ⟨0, ![]⟩

class Facts : Prop where
  bcast_S_S96x16x512 : S_.BroadcastsInDim S96x16x512 (![] : Fin 0 → Fin S96x16x512.rank)
  reducesTo_S96x16x512_S_d0_1_2 : S96x16x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S96x16x512 .f32) (main_arg1 : FVec F S512x1024 .f32) (main_arg2 : FVec F S512 .f32) : IVec S_ 1 :=
  let main_v0 : FVec F S96x16x512 .f32 := Host.absf main_arg0
  let main_cst : FVec F S_ .f32 := constant S_ .f32 0x7F800000#32
  let main_v1 : FVec F S96x16x512 .f32 := broadcastInDim S96x16x512 ![] bcast_S_S96x16x512 main_cst
  let main_v2 : IVec S96x16x512 1 := cmpf .olt main_v0 main_v1
  let main_c : IVec S_ 1 := constantI S_ 1 1#1
  let main_v3 : IVec S_ 1 := (fun x v => Host.reduce IntOp.andi x v reducesTo_S96x16x512_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S96x16x512 : Shape := ⟨3, ![96, 16, 512]⟩
abbrev S512x1024 : Shape := ⟨2, ![512, 1024]⟩
abbrev S512 : Shape := ⟨1, ![512]⟩
abbrev S1536x512 : Shape := ⟨2, ![1536, 512]⟩
abbrev S512x512 : Shape := ⟨2, ![512, 512]⟩
abbrev S96x96x16x512 : Shape := ⟨4, ![96, 96, 16, 512]⟩
abbrev S16x16x512 : Shape := ⟨3, ![16, 16, 512]⟩
abbrev S16x16x16x512 : Shape := ⟨4, ![16, 16, 16, 512]⟩
abbrev S16x1x16x512 : Shape := ⟨4, ![16, 1, 16, 512]⟩
abbrev S1x16x16x512 : Shape := ⟨4, ![1, 16, 16, 512]⟩
abbrev S1x1x1x512 : Shape := ⟨4, ![1, 1, 1, 512]⟩
abbrev S9216x16x512 : Shape := ⟨3, ![9216, 16, 512]⟩

abbrev nBuf : Space → Nat
  | .hbm => 14
  | .vmem => 12
  | .smem => 0
  | _ => 0

abbrev bufTy : (tb : Table) → Fin (tcTables nBuf tb) → BufTy
  | .hbm, ⟨0, _⟩ => ⟨S96x16x512, .f32⟩
  | .hbm, ⟨1, _⟩ => ⟨S512x1024, .f32⟩
  | .hbm, ⟨2, _⟩ => ⟨S512, .f32⟩
  | .hbm, ⟨3, _⟩ => ⟨S1536x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S1536x512, .f32⟩
  | .hbm, ⟨9, _⟩ => ⟨S1536x512, .f32⟩
  | .hbm, ⟨10, _⟩ => ⟨S96x16x512, .f32⟩
  | .hbm, ⟨11, _⟩ => ⟨S96x16x512, .f32⟩
  | .hbm, ⟨12, _⟩ => ⟨S96x96x16x512, .f32⟩
  | .hbm, ⟨13, _⟩ => ⟨S9216x16x512, .f32⟩
  | .local _ .vmem, ⟨0, _⟩ => ⟨S1536x512, .f32⟩
  | .local _ .vmem, ⟨1, _⟩ => ⟨S512x512, .f32⟩
  | .local _ .vmem, ⟨2, _⟩ => ⟨S512x512, .f32⟩
  | .local _ .vmem, ⟨3, _⟩ => ⟨S1536x512, .f32⟩
  | .local _ .vmem, ⟨4, _⟩ => ⟨S1536x512, .f32⟩
  | .local _ .vmem, ⟨5, _⟩ => ⟨S16x16x512, .f32⟩
  | .local _ .vmem, ⟨6, _⟩ => ⟨S16x16x512, .f32⟩
  | .local _ .vmem, ⟨7, _⟩ => ⟨S16x16x512, .f32⟩
  | .local _ .vmem, ⟨8, _⟩ => ⟨S16x16x512, .f32⟩
  | .local _ .vmem, ⟨9, _⟩ => ⟨S512, .f32⟩
  | .local _ .vmem, ⟨10, _⟩ => ⟨S16x16x16x512, .f32⟩
  | .local _ .vmem, ⟨11, _⟩ => ⟨S16x16x16x512, .f32⟩
  | _, _ => ⟨S96x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![6, 6], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S16x16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S16x16x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S16x16x16x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S96x16x512_S1536x512 : S96x16x512.ShapeCasts S1536x512
  slices_S512x1024_S512x512_0_0 : S512x1024.Slices ![0, 0] S512x512
  slices_S512x1024_S512x512_0_512 : S512x1024.Slices ![0, 512] S512x512
  transposes_S512x512_S512x512_1_0 : S512x512.Transposes [1, 0] S512x512
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1536x512_S96x16x512 : S1536x512.ShapeCasts S96x16x512
  inb_S16x16x512_S16x16x512_0_0_0 : ∀ a, (![0, 0, 0] : Fin 3 → Nat) a + S16x16x512.size a ≤ S16x16x512.size a
  h_S16x16x512 : 0 < S16x16x512.numel
  shapeCasts_S16x16x512_S16x16x512 : S16x16x512.ShapeCasts S16x16x512
  inb_S512_S512_0 : ∀ a, (![0] : Fin 1 → Nat) a + S512.size a ≤ S512.size a
  h_S512 : 0 < S512.numel
  shapeCasts_S16x16x512_S16x1x16x512 : S16x16x512.ShapeCasts S16x1x16x512
  shapeCasts_S16x1x16x512_S16x1x16x512 : S16x1x16x512.ShapeCasts S16x1x16x512
  broadcasts_S16x1x16x512_S16x16x16x512 : S16x1x16x512.Broadcasts S16x16x16x512
  shapeCasts_S16x16x512_S1x16x16x512 : S16x16x512.ShapeCasts S1x16x16x512
  shapeCasts_S1x16x16x512_S1x16x16x512 : S1x16x16x512.ShapeCasts S1x16x16x512
  broadcasts_S1x16x16x512_S16x16x16x512 : S1x16x16x512.Broadcasts S16x16x16x512
  shapeCasts_S512_S1x1x1x512 : S512.ShapeCasts S1x1x1x512
  broadcasts_S1x1x1x512_S16x16x16x512 : S1x1x1x512.Broadcasts S16x16x16x512
  inb_S16x16x16x512_S16x16x16x512_0_0_0_0 : ∀ a, (![0, 0, 0, 0] : Fin 4 → Nat) a + S16x16x16x512.size a ≤ S16x16x16x512.size a
  h_S16x16x16x512 : 0 < S16x16x16x512.numel
  shapeCasts_S96x96x16x512_S9216x16x512 : S96x96x16x512.ShapeCasts S9216x16x512
  dot_S1536x512_S512x512_S1536x512_1_0_0_1_n_n_wf : DotDims.WF S1536x512 S512x512 S1536x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1536x512.size a ≤ S1536x512.size a
  hwx0_0 : ∀ i : grid0.Coords, EltTy.bits .f32 = 32 ∨ (Rect.block (s := S1536x512) S1536x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536x512.size a ≤ S1536x512.size a
  hwx0_3 : ∀ i : grid0.Coords, EltTy.bits .f32 = 32 ∨ (Rect.block (s := S1536x512) S1536x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1536x512.size a ≤ S1536x512.size a
  hwx0_4 : ∀ i : grid0.Coords, EltTy.bits .f32 = 32 ∨ (Rect.block (s := S1536x512) S1536x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x16x512.size a ≤ S96x16x512.size a
  hwx1_0 : ∀ i : grid1.Coords, EltTy.bits .f32 = 32 ∨ (Rect.block (s := S96x16x512) S16x16x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x16x512.size a ≤ S96x16x512.size a
  hwx1_1 : ∀ i : grid1.Coords, EltTy.bits .f32 = 32 ∨ (Rect.block (s := S96x16x512) S16x16x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x16x16x512.size a ≤ S96x96x16x512.size a
  hwx1_3 : ∀ i : grid1.Coords, EltTy.bits .f32 = 32 ∨ (Rect.block (s := S96x96x16x512) S16x16x16x512.size (cc1_transform_3 i) (hinb1_3 i)).WholeWords (EltTy.packing .f32)

variable [Facts₀]

def dot_S1536x512_S512x512_S1536x512_1_0_0_1_n_n : DotDims S1536x512 S512x512 S1536x512 where
  lhsContracting := [1]
  rhsContracting := [0]
  lhsNonContracting := [0]
  rhsNonContracting := [1]
  lhsBatch := []
  rhsBatch := []
  wf := dot_S1536x512_S512x512_S1536x512_1_0_0_1_n_n_wf

abbrev win0_0 : Pipeline.Window sig grid0 :=
  Pipeline.Window.ofSpec (Memref.whole main_v0) S1536x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1536x512.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1536x512.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S16x16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S16x16x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S16x16x16x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S96x16x512 : Shape := ⟨3, ![96, 16, 512]⟩
abbrev S512x1024 : Shape := ⟨2, ![512, 1024]⟩
abbrev S512 : Shape := ⟨1, ![512]⟩
abbrev S96x1x16x512 : Shape := ⟨4, ![96, 1, 16, 512]⟩
abbrev S96x96x16x512 : Shape := ⟨4, ![96, 96, 16, 512]⟩
abbrev S1x96x16x512 : Shape := ⟨4, ![1, 96, 16, 512]⟩
abbrev S96x96x16x1024 : Shape := ⟨4, ![96, 96, 16, 1024]⟩
abbrev S_ : Shape := ⟨0, ![]⟩
abbrev S1x1x1x512 : Shape := ⟨4, ![1, 1, 1, 512]⟩
abbrev S9216x16x512 : Shape := ⟨3, ![9216, 16, 512]⟩

abbrev nBuf : Space → Nat
  | .hbm => 21
  | .vmem => 0
  | .smem => 0
  | _ => 0

abbrev bufTy : (tb : Table) → Fin (tcTables nBuf tb) → BufTy
  | .hbm, ⟨0, _⟩ => ⟨S96x16x512, .f32⟩
  | .hbm, ⟨1, _⟩ => ⟨S512x1024, .f32⟩
  | .hbm, ⟨2, _⟩ => ⟨S512, .f32⟩
  | .hbm, ⟨3, _⟩ => ⟨S96x1x16x512, .f32⟩
  | .hbm, ⟨4, _⟩ => ⟨S96x96x16x512, .f32⟩
  | .hbm, ⟨5, _⟩ => ⟨S1x96x16x512, .f32⟩
  | .hbm, ⟨6, _⟩ => ⟨S96x96x16x512, .f32⟩
  | .hbm, ⟨7, _⟩ => ⟨S96x96x16x1024, .f32⟩
  | .hbm, ⟨8, _⟩ => ⟨S_, .f32⟩
  | .hbm, ⟨9, _⟩ => ⟨S_, .f32⟩
  | .hbm, ⟨10, _⟩ => ⟨S96x96x16x1024, .f32⟩
  | .hbm, ⟨11, _⟩ => ⟨S96x96x16x1024, .i1⟩
  | .hbm, ⟨12, _⟩ => ⟨S_, .f32⟩
  | .hbm, ⟨13, _⟩ => ⟨S96x96x16x1024, .f32⟩
  | .hbm, ⟨14, _⟩ => ⟨S96x96x16x1024, .f32⟩
  | .hbm, ⟨15, _⟩ => ⟨S96x96x16x1024, .f32⟩
  | .hbm, ⟨16, _⟩ => ⟨S96x96x16x512, .f32⟩
  | .hbm, ⟨17, _⟩ => ⟨S1x1x1x512, .f32⟩
  | .hbm, ⟨18, _⟩ => ⟨S96x96x16x512, .f32⟩
  | .hbm, ⟨19, _⟩ => ⟨S96x96x16x512, .f32⟩
  | .hbm, ⟨20, _⟩ => ⟨S9216x16x512, .f32⟩
  | _, _ => ⟨S96x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]

class Facts₀ : Prop where
  bcast_S96x16x512_S96x1x16x512_0_2_3 : S96x16x512.BroadcastsInDim S96x1x16x512 (![0, 2, 3] : Fin 3 → Fin S96x1x16x512.rank)
  bcast_S96x1x16x512_S96x96x16x512_0_1_2_3 : S96x1x16x512.BroadcastsInDim S96x96x16x512 (![0, 1, 2, 3] : Fin 4 → Fin S96x96x16x512.rank)
  bcast_S96x16x512_S1x96x16x512_1_2_3 : S96x16x512.BroadcastsInDim S1x96x16x512 (![1, 2, 3] : Fin 3 → Fin S1x96x16x512.rank)
  bcast_S1x96x16x512_S96x96x16x512_0_1_2_3 : S1x96x16x512.BroadcastsInDim S96x96x16x512 (![0, 1, 2, 3] : Fin 4 → Fin S96x96x16x512.rank)
  concatenates_S96x96x16x512_S96x96x16x512_S96x96x16x1024_d3 : Shape.Concatenates [S96x96x16x512, S96x96x16x512] S96x96x16x1024 3
  bcast_S_S96x96x16x1024 : S_.BroadcastsInDim S96x96x16x1024 (![] : Fin 0 → Fin S96x96x16x1024.rank)
  bcast_S512_S1x1x1x512_3 : S512.BroadcastsInDim S1x1x1x512 (![3] : Fin 1 → Fin S1x1x1x512.rank)
  bcast_S1x1x1x512_S96x96x16x512_0_1_2_3 : S1x1x1x512.BroadcastsInDim S96x96x16x512 (![0, 1, 2, 3] : Fin 4 → Fin S96x96x16x512.rank)
  shapeCasts_S96x96x16x512_S9216x16x512 : S96x96x16x512.ShapeCasts S9216x16x512
  dot_S96x96x16x1024_S512x1024_S96x96x16x512_3_1_012_0_n_n_wf : DotDims.WF S96x96x16x1024 S512x1024 S96x96x16x512 [3] [1] [0, 1, 2] [0] [] []

variable [Facts₀]

def dot_S96x96x16x1024_S512x1024_S96x96x16x512_3_1_012_0_n_n : DotDims S96x96x16x1024 S512x1024 S96x96x16x512 where
  lhsContracting := [3]
  rhsContracting := [1]
  lhsNonContracting := [0, 1, 2]
  rhsNonContracting := [0]
  lhsBatch := []
  rhsBatch := []
  wf := dot_S96x96x16x1024_S512x1024_S96x96x16x512_3_1_012_0_n_n_wf

class Facts : Prop extends Facts₀ where

variable [Facts]
-- ==== Proof.PairRegion.lean ====
/-
  The second kernel region: every block of the result is the sum of a block of A, a block of B and the bias.

  The region walks a 6 × 6 grid. At point (s, u) it stages rows 16s … 16s+15 of A, rows 16u … 16u+15 of B and the whole
  bias, and writes back the block (16s …, 16u …, all, all) of the result: entry (p, q, r, d) of that block is
  A-block(p, r, d) + B-block(q, r, d) + bias(d), the two operands repeated along the axis the other one owns.
  The 36 blocks tile the result, so after the region the result array holds, at (i, j, r, d),
  A(i, r, d) + B(j, r, d) + bias(d).
-/
import proofs.«179011_j80934363726437_1_alg».proof.Proof.Gen.KernelIdeal.Frame
import Idealize.ShloMosaic.Lib.Pipeline.Value
import Idealize.ShloMosaic.Lib.ValueIdx

set_option maxRecDepth 16384

noncomputable section

namespace Cert.KernelIdeal.PairRegion

open Cert.KernelIdeal Cert.KernelIdeal.Gen Idealize.ShloMosaic Idealize.ShloMosaic.TcCoe Idealize.SL.Sem Idealize.ShloMosaic.ValueIdx
open Idealize.ShloMosaic.Pipeline (Dat)

/-! ## The body's sum at an entry -/

theorem hz1 : (![0] : Fin 1 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A block [16, 16, 512] given a unit second axis reads, at (p, u, r, d), the block at (p, r, d). -/
theorem cast_second (x : S16x16x512.Idx → EReal) (h : S16x16x512.ShapeCasts S16x1x16x512)
    (p : Fin 16) (u : Fin 1) (r : Fin 16) (d : Fin 512) :
    shapeCast S16x1x16x512 x h (ix4 p u r d) = x (ix3 p r d) := by
  refine shapeCast_apply x h (ix4 p u r d) (ix3 p r d) ?_
  rw [Shape.rowMajor_val_three, Shape.rowMajor_val_four]
  have := u.isLt
  show (p.val * 16 + r.val) * 512 + d.val = ((p.val * 1 + u.val) * 16 + r.val) * 512 + d.val
  omega

/-- A block [16, 16, 512] given a unit leading axis reads, at (u, q, r, d), the block at (q, r, d). -/
theorem cast_first (x : S16x16x512.Idx → EReal) (h : S16x16x512.ShapeCasts S1x16x16x512)
    (u : Fin 1) (q : Fin 16) (r : Fin 16) (d : Fin 512) :
    shapeCast S1x16x16x512 x h (ix4 u q r d) = x (ix3 q r d) := by
  refine shapeCast_apply x h (ix4 u q r d) (ix3 q r d) ?_
  rw [Shape.rowMajor_val_three, Shape.rowMajor_val_four]
  have := u.isLt
  show (q.val * 16 + r.val) * 512 + d.val = ((u.val * 16 + q.val) * 16 + r.val) * 512 + d.val
  omega

/-- A vector [512] given three unit leading axes reads, at (u, v, w, d), the vector at d. -/
theorem cast_vec (x : S512.Idx → EReal) (h : S512.ShapeCasts S1x1x1x512)
    (u v w : Fin 1) (d : Fin 512) :
    shapeCast S1x1x1x512 x h (ix4 u v w d) = x (ix1 d) := by
  refine shapeCast_apply x h (ix4 u v w d) (ix1 d) ?_
  rw [Shape.rowMajor_val_one, Shape.rowMajor_val_four]
  have := u.isLt; have := v.isLt; have := w.isLt
  show d.val = ((u.val * 1 + v.val) * 1 + w.val) * 512 + d.val
  omega

/-- The body's one stored value at (p, q, r, d): block of A at (p, r, d), plus block of B at (q, r, d), plus the bias
    at d. -/
theorem pay_apply (x0 x1 : Vec Ideal S16x16x512 .f32) (x2 : Vec Ideal S512 .f32) (p q r : Fin 16) (d : Fin 512) :
    k1_pay1 (F := Ideal) x0 x1 x2 (ix4 p q r d) = (x0 (ix3 p r d) + x1 (ix3 q r d)) + x2 (ix1 d) := by
  unfold k1_pay1
  refine (addf_apply _ _ _).trans ?_
  refine congrArg₂ (· + ·) ((addf_apply _ _ _).trans (congrArg₂ (· + ·) ?_ ?_)) ?_
  · refine (broadcastTo_apply _ _ (ix4 p q r d) (ix4 p (0 : Fin 1) r d) ?_).trans ?_
    · intro a
      match a with
      | ⟨0, _⟩ => rfl
      | ⟨1, _⟩ => rfl
      | ⟨2, _⟩ => rfl
      | ⟨3, _⟩ => rfl
    · rw [shapeCast_self, cast_second, shapeCast_self]
  · refine (broadcastTo_apply _ _ (ix4 p q r d) (ix4 (0 : Fin 1) q r d) ?_).trans ?_
    · intro a
      match a with
      | ⟨0, _⟩ => rfl
      | ⟨1, _⟩ => rfl
      | ⟨2, _⟩ => rfl
      | ⟨3, _⟩ => rfl
    · rw [shapeCast_self, cast_first, shapeCast_self]
  · refine (broadcastTo_apply _ _ (ix4 p q r d) (ix4 (0 : Fin 1) (0 : Fin 1) (0 : Fin 1) d) ?_).trans ?_
    · intro a
      match a with
      | ⟨0, _⟩ => rfl
      | ⟨1, _⟩ => rfl
      | ⟨2, _⟩ => rfl
      | ⟨3, _⟩ => rfl
    · rw [cast_vec]

/-! ## From the blocks to the array -/

variable (V : (c : Dev nD) → (b : Ref sig .tc) → Buf (Elt Ideal) ((c : Thread nD τ).loc b))

/-- What the result array holds after the region, as a function of the three arrays the region reads. -/
def pairSum (a b : S96x16x512.Idx → EReal) (bias : S512.Idx → EReal) : S96x96x16x512.Idx → EReal :=
  fun i => (a (ix3 (n0 := 96) (n1 := 16) (n2 := 512) (i 0) (i 2) (i 3)) + b (ix3 (n0 := 96) (n1 := 16) (n2 := 512) (i 1) (i 2) (i 3)))
    + bias (ix1 (n := 512) (i 3))

/-- The three arrays the region reads, as it finds them, at their literal types. -/
abbrev arrA (c : Dev nD) : S96x16x512.Idx → EReal := V c main_v6
abbrev arrB (c : Dev nD) : S96x16x512.Idx → EReal := V c main_v7
abbrev arrBias (c : Dev nD) : S512.Idx → EReal := V c main_arg2

/-- The index maps over the 36 points: A's block follows the result's first block index, B's the second, every other
    block index is 0, and the two moving indices stay below 6. -/
theorem idx_facts : ∀ t : Fin cfg1.N,
    win1_0.index t (0 : Fin 3) = win1_3.index t (0 : Fin 4) ∧ win1_0.index t (1 : Fin 3) = 0 ∧ win1_0.index t (2 : Fin 3) = 0
    ∧ win1_1.index t (0 : Fin 3) = win1_3.index t (1 : Fin 4) ∧ win1_1.index t (1 : Fin 3) = 0 ∧ win1_1.index t (2 : Fin 3) = 0
    ∧ win1_2.index t (0 : Fin 1) = 0
    ∧ win1_3.index t (2 : Fin 4) = 0 ∧ win1_3.index t (3 : Fin 4) = 0
    ∧ win1_3.index t (0 : Fin 4) ≤ 5 ∧ win1_3.index t (1 : Fin 4) ≤ 5 :=
  (by decide +kernel : ∀ t : Fin grid1.N, _)

/-- Every pair of block indices below 6 is some point's. -/
theorem idx_onto : ∀ (q0 q1 : Fin 6), ∃ t : Fin cfg1.N, win1_3.index t = ![q0.val, q1.val, 0, 0] :=
  (by decide +kernel : ∀ (q0 q1 : Fin 6), ∃ t : Fin grid1.N, win1_3.index t = ![q0.val, q1.val, 0, 0])

/-- What point t writes back is block t of `pairSum` of the arrays as the region finds them. -/
theorem flushed_eq (c : Dev nD) (t : Fin cfg1.N) :
    (dat1 V c).flushed 3 t
      = ((cfg1.win 3).blk t).view.read (Elt Ideal) (pairSum (V c main_v6) (V c main_v7) (V c main_arg2)) := by
  show (cfg1.win 3).cut (grid1.coords t) ((dat1 V c).after 3 t) = _
  rw [after1_3]
  unfold out1_3
  rw [View.canon_unit_zero hz4]
  simp only [View.ld_unit_zero (S := S16x16x512) hz3, View.ld_unit_zero (S := S512) hz1]
  obtain ⟨e0, e1, e2, e3, e4, e5, e6, e7, e8, e9, e10⟩ := idx_facts t
  funext j
  obtain ⟨p, q, r, d, rfl⟩ : ∃ (p q r : Fin 16) (d : Fin 512), j = ix4 p q r d := ⟨j 0, j 1, j 2, j 3, eq_ix4 j⟩
  refine (pay_apply (iblk1 V c 0 t) (iblk1 V c 1 t) (iblk1 V c 2 t) p q r d).trans ?_
  show (arrA V c (((cfg1.win 0).blk t).view.emb (ix3 p r d)) + arrB V c (((cfg1.win 1).blk t).view.emb (ix3 q r d)))
      + arrBias V c (((cfg1.win 2).blk t).view.emb (ix1 d))
    = pairSum (arrA V c) (arrB V c) (arrBias V c) (((cfg1.win 3).blk t).view.emb (ix4 p q r d))
  have hp := p.isLt; have hq := q.isLt; have hr := r.isLt; have hd := d.isLt
  have h0 : ((cfg1.win 0).blk t).view.emb (ix3 p r d)
      = ix3 (n0 := 96) (n1 := 16) (n2 := 512) ((((cfg1.win 3).blk t).view.emb (ix4 p q r d)) 0) ((((cfg1.win 3).blk t).view.emb (ix4 p q r d)) 2) ((((cfg1.win 3).blk t).view.emb (ix4 p q r d)) 3) := by
    funext a; apply Fin.ext
    match a with
    | ⟨0, _⟩ => show win1_0.index t (0 : Fin 3) * 16 + 1 * p.val = win1_3.index t (0 : Fin 4) * 16 + 1 * p.val; omega
    | ⟨1, _⟩ => show win1_0.index t (1 : Fin 3) * 16 + 1 * r.val = win1_3.index t (2 : Fin 4) * 16 + 1 * r.val; omega
    | ⟨2, _⟩ => show win1_0.index t (2 : Fin 3) * 512 + 1 * d.val = win1_3.index t (3 : Fin 4) * 512 + 1 * d.val; omega
  have h1 : ((cfg1.win 1).blk t).view.emb (ix3 q r d)
      = ix3 (n0 := 96) (n1 := 16) (n2 := 512) ((((cfg1.win 3).blk t).view.emb (ix4 p q r d)) 1) ((((cfg1.win 3).blk t).view.emb (ix4 p q r d)) 2) ((((cfg1.win 3).blk t).view.emb (ix4 p q r d)) 3) := by
    funext a; apply Fin.ext
    match a with
    | ⟨0, _⟩ => show win1_1.index t (0 : Fin 3) * 16 + 1 * q.val = win1_3.index t (1 : Fin 4) * 16 + 1 * q.val; omega
    | ⟨1, _⟩ => show win1_1.index t (1 : Fin 3) * 16 + 1 * r.val = win1_3.index t (2 : Fin 4) * 16 + 1 * r.val; omega
    | ⟨2, _⟩ => show win1_1.index t (2 : Fin 3) * 512 + 1 * d.val = win1_3.index t (3 : Fin 4) * 512 + 1 * d.val; omega
  have h2 : ((cfg1.win 2).blk t).view.emb (ix1 d)
      = ix1 (n := 512) ((((cfg1.win 3).blk t).view.emb (ix4 p q r d)) 3) := by
    funext a; apply Fin.ext
    match a with
    | ⟨0, _⟩ => show win1_2.index t (0 : Fin 1) * 512 + 1 * d.val = win1_3.index t (3 : Fin 4) * 512 + 1 * d.val; omega
  rw [h0, h1, h2]
  rfl

/-- An index of the result is in point t's block iff each coordinate is in the block's range on its axis. -/
theorem mem_blk (t : Fin cfg1.N) (i : S96x96x16x512.Idx) :
    i ∈ ((cfg1.win 3).blk t).view.set ↔ ∀ a : Fin 4, win1_3.index t a * S16x16x16x512.size a ≤ (i a).val ∧ (i a).val < win1_3.index t a * S16x16x16x512.size a + S16x16x16x512.size a := by
  show i ∈ ((View.whole main_v8).slice (win1_3.rect t)).set ↔ _
  rw [View.set_slice_whole, Rect.mem_set_unit]
  exact Iff.rfl

/-- The 36 blocks tile the result: the point that covers (i, j, ·, ·) is the one with block indices (i / 16, j / 16). -/
theorem cover (i : S96x96x16x512.Idx) :
    ∃ t : Fin cfg1.N, (cfg1.win 3).flush t = true ∧ i ∈ ((cfg1.win 3).blk t).view.set := by
  have hi0 : (i 0).val < 96 := (i 0).isLt
  have hi1 : (i 1).val < 96 := (i 1).isLt
  have hi2 : (i 2).val < 16 := (i 2).isLt
  have hi3 : (i 3).val < 512 := (i 3).isLt
  obtain ⟨t, ht⟩ := idx_onto ⟨(i 0).val / 16, by omega⟩ ⟨(i 1).val / 16, by omega⟩
  have q0 : win1_3.index t (0 : Fin 4) = (i 0).val / 16 := congrFun ht 0
  have q1 : win1_3.index t (1 : Fin 4) = (i 1).val / 16 := congrFun ht 1
  have q2 : win1_3.index t (2 : Fin 4) = 0 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 16 ≤ (i 0).val ∧ (i 0).val < win1_3.index t (0 : Fin 4) * 16 + 16; omega
  | ⟨1, _⟩ => show win1_3.index t (1 : Fin 4) * 16 ≤ (i 1).val ∧ (i 1).val < win1_3.index t (1 : Fin 4) * 16 + 16; omega
  | ⟨2, _⟩ => show win1_3.index t (2 : Fin 4) * 16 ≤ (i 2).val ∧ (i 2).val < win1_3.index t (2 : Fin 4) * 16 + 16; omega
  | ⟨3, _⟩ => show win1_3.index t (3 : Fin 4) * 512 ≤ (i 3).val ∧ (i 3).val < win1_3.index t (3 : Fin 4) * 512 + 512; omega

/-- After the region the result array is `pairSum` of the arrays the region found. -/
theorem final (c : Dev nD) :
    (dat1 V c).arrAt 3 cfg1.N = pairSum (V c main_v6) (V c main_v7) (V c main_arg2) :=
  (dat1 V c).arrAt_eq_of_cover 3 _ (fun t _ => flushed_eq V c t) cover

end Cert.KernelIdeal.PairRegion

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.Spec.lean ====
/-
  The mathematics shared by the two programs.

  Write L(v) for the leaky rectifier: v where v > 0, and v times the slope (the f32 value nearest a tenth) elsewhere.
  For rows x[i], x[j] of 512 entries each and a weight matrix W of 512 rows of 1024 entries, the result at
  (i, j, r, c) is

      Σ_{l < 512} L(x[i, r, l]) · W[c, l]  +  Σ_{l < 512} L(x[j, r, l]) · W[c, 512 + l]  +  bias[c].

  The kernel computes the two sums separately (two products with the two halves of W transposed) and adds them block
  by block; the reference lays x[i] and x[j] side by side in one row of 1024 entries and contracts it with W's row in
  one sum over 1024. A sum over 1024 consecutive entries is the sum over the first 512 plus the sum over the last 512
  (addition of extended reals is commutative and associative, so no finiteness is needed), and the reference's
  spelling of the rectifier — v where v ≥ 0, the slope times v elsewhere — is the same function: the two differ only
  in how they treat v = 0, where both give 0.
-/
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

/-- The slope of the rectifier: the extended real the f32 literal denotes. -/
def slope : EReal := Ideal.ofBits .f32 0x3DCCCCCD#32

/-- The leaky rectifier, in the kernel's spelling. -/
def lrelu (v : EReal) : EReal := Scalar.select (Ideal.cmp .ogt v 0) v (v * slope)

/-- The reference's spelling (at least zero; the slope on the left) is the same function. -/
theorem lrelu_host (v : EReal) : Scalar.select (Ideal.cmp .oge v 0) v (slope * v) = lrelu v := by
  unfold lrelu Scalar.select Ideal.cmp
  by_cases h1 : (0 : EReal) < v
  · have h2 : (0 : EReal) ≤ v := le_of_lt h1
    simp [h1, h2]
  · by_cases h2 : (0 : EReal) ≤ v
    · have h3 : v = 0 := le_antisymm (not_lt.mp h1) h2
      subst h3
      simp
    · simp [h1, h2, mul_comm]

/-- A sum over 1024 consecutive entries is the sum over the first 512 plus the sum over the last 512. -/
theorem sum_halves (f : Fin 1024 → EReal) :
    ∑ k : Fin 1024, f k
      = (∑ l : Fin 512, f ⟨l.val, by have := l.isLt; omega⟩) + ∑ l : Fin 512, f ⟨512 + l.val, by have := l.isLt; omega⟩ := by
  have h := Fin.sum_univ_add (a := 512) (b := 512) (M := EReal) f
  exact h

/-- The result's entry at the pair (i, j), row r, column c. -/
def entry (x : (⟨3, ![96, 16, 512]⟩ : Shape).Idx → EReal) (w : (⟨2, ![512, 1024]⟩ : Shape).Idx → EReal)
    (b : (⟨1, ![512]⟩ : Shape).Idx → EReal) (i j : Fin 96) (r : Fin 16) (c : Fin 512) : EReal :=
  ((∑ l : Fin 512, lrelu (x (ix3 i r l)) * w (ix2 c (⟨l.val, by have := l.isLt; omega⟩ : Fin 1024)))
    + ∑ l : Fin 512, lrelu (x (ix3 j r l)) * w (ix2 c (⟨512 + l.val, by have := l.isLt; omega⟩ : Fin 1024)))
  + b (ix1 c)

/-- The first coordinate of the flattened result names the pair (n / 96, n % 96). -/
def fst96 (n : Fin 9216) : Fin 96 := ⟨n.val / 96, by have := n.isLt; omega⟩
def snd96 (n : Fin 9216) : Fin 96 := ⟨n.val % 96, by omega⟩

/-- The whole result, pairs flattened into one axis of 9216. -/
def result (x : (⟨3, ![96, 16, 512]⟩ : Shape).Idx → EReal) (w : (⟨2, ![512, 1024]⟩ : Shape).Idx → EReal)
    (b : (⟨1, ![512]⟩ : Shape).Idx → EReal) : (⟨3, ![9216, 16, 512]⟩ : Shape).Idx → EReal :=
  fun n => entry x w b (fst96 (n 0)) (snd96 (n 0)) (n 1) (n 2)

/-- The flattening of the pair axes read at an index: entry (n, r, c) of the flattened array is entry
    (n / 96, n % 96, r, c) of the array of pairs. -/
theorem flatten_apply {α : Type} (y : (⟨4, ![96, 96, 16, 512]⟩ : Shape).Idx → α)
    (h : (⟨4, ![96, 96, 16, 512]⟩ : Shape).ShapeCasts ⟨3, ![9216, 16, 512]⟩) (n : Fin 9216) (r : Fin 16) (c : Fin 512) :
    shapeCast ⟨3, ![9216, 16, 512]⟩ y h (ix3 n r c) = y (ix4 (fst96 n) (snd96 n) r c) := by
  refine shapeCast_apply y h (ix3 n r c) (ix4 (fst96 n) (snd96 n) r c) ?_
  rw [Shape.rowMajor_val_three, Shape.rowMajor_val_four]
  show (((n.val / 96) * 96 + n.val % 96) * 16 + r.val) * 512 + c.val = (n.val * 16 + r.val) * 512 + c.val
  have := Nat.div_add_mod n.val 96
  have e : (n.val / 96) * 96 + n.val % 96 = n.val := by omega
  rw [e]

end Cert.Spec

end
-- ==== Proof.ProductRegion.lean ====
/-
  The first kernel region: the two products.

  The region has one grid point and every window is its whole array, so each staged block is the array itself and the
  one write-back of each result window covers its whole array. The body rectifies the staged rows once and multiplies
  them with each of the two staged weight matrices into a zero accumulator: after the region the two result arrays hold,
  at (r, h), the sums Σ_l L(X[r, l]) · W₁[l, h] and Σ_l L(X[r, l]) · W₂[l, h] over the 512 entries of row r, where L is the
  leaky rectifier (the change to the narrower float format before the product is the identity on extended reals).
-/
import proofs.«179011_j80934363726437_1_alg».proof.Proof.Gen.KernelIdeal.Frame
import proofs.«179011_j80934363726437_1_alg».proof.Proof.LibDenseLayer
import proofs.«179011_j80934363726437_1_alg».proof.Proof.Spec
import Idealize.ShloMosaic.Lib.Pipeline.Value
import Idealize.ShloMosaic.Lib.ValueIdx

set_option maxRecDepth 16384

noncomputable section

namespace Cert.KernelIdeal.ProductRegion

open Cert.KernelIdeal Cert.KernelIdeal.Gen Idealize.ShloMosaic Idealize.ShloMosaic.TcCoe Idealize.SL.Sem Idealize.ShloMosaic.ValueIdx
open Idealize.ShloMosaic.Pipeline (Dat)

/-! ## The body's values at an entry -/

/-- The rectified rows at an entry: the rectifier of the entry. -/
theorem pay1_apply (x : Vec Ideal S1536x512 .f32) (i : S1536x512.Idx) :
    k0_pay1 (F := Ideal) x i = Cert.Spec.lrelu (x i) := by
  unfold k0_pay1
  simp only [shapeCast_self]
  show Scalar.select (Ideal.cmp .ogt (x i) (Ideal.ofBits .f32 0x00000000#32)) (x i) (x i * Ideal.ofBits .f32 0x3DCCCCCD#32) = _
  rw [Ideal.ofBits_zero_f32]
  rfl

/-- The product of the rectified rows with a 512 × 512 matrix, into zero, at (r, h). -/
theorem product_apply (x : Vec Ideal S1536x512 .f32) (w : Vec Ideal S512x512 .f32) (r : Fin 1536) (h : Fin 512) :
    k0_pay2 (F := Ideal) x w (ix2 r h) = ∑ l : Fin 512, Cert.Spec.lrelu (x (ix2 r l)) * w (ix2 l h) := by
  unfold k0_pay2
  refine (DenseLayer.matmul_rows_apply Facts₀.dot_S1536x512_S512x512_S1536x512_1_0_0_1_n_n_wf none _ _ r h).trans ?_
  refine Finset.sum_congr rfl fun l _ => ?_
  refine congrArg₂ (· * ·) (pay1_apply x _) ?_
  rw [truncf_apply, shapeCast_self]

/-- The second store's value is the same product with the other matrix. -/
theorem product_apply' (x : Vec Ideal S1536x512 .f32) (w : Vec Ideal S512x512 .f32) (r : Fin 1536) (h : Fin 512) :
    k0_pay3 (F := Ideal) x w (ix2 r h) = ∑ l : Fin 512, Cert.Spec.lrelu (x (ix2 r l)) * w (ix2 l h) := by
  unfold k0_pay3
  refine (DenseLayer.matmul_rows_apply Facts₀.dot_S1536x512_S512x512_S1536x512_1_0_0_1_n_n_wf none _ _ r h).trans ?_
  refine Finset.sum_congr rfl fun l _ => ?_
  refine congrArg₂ (· * ·) (pay1_apply x _) ?_
  rw [truncf_apply, shapeCast_self]

/-! ## From the one block to the array -/

variable (V : (c : Dev nD) → (b : Ref sig .tc) → Buf (Elt Ideal) ((c : Thread nD τ).loc b))

theorem hz2 : (![0, 0] : Fin 2 → Nat) = fun _ => 0 := funext fun a => by fin_cases a <;> rfl

/-- The three arrays the region reads, as it finds them, at their literal types. -/
abbrev arrX (c : Dev nD) : S1536x512.Idx → EReal := V c main_v0
abbrev arrW1 (c : Dev nD) : S512x512.Idx → EReal := V c main_v3
abbrev arrW2 (c : Dev nD) : S512x512.Idx → EReal := V c main_v4

/-- Every window's block index is 0 on both axes at the one point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The staged block of the rows is the whole array of rows. -/
theorem block_X (c : Dev nD) (t : Fin cfg0.N) : (iblk0 V c 0 t : S1536x512.Idx → EReal) = arrX V c := by
  obtain ⟨e0, e1, -⟩ := idx_facts t
  funext y
  show arrX V c (((cfg0.win 0).blk t).view.emb y) = arrX V c y
  refine congrArg _ (funext fun a => Fin.ext ?_)
  match a with
  | ⟨0, _⟩ => show win0_0.index t (0 : Fin 2) * 1536 + 1 * (y 0).val = (y 0).val; omega
  | ⟨1, _⟩ => show win0_0.index t (1 : Fin 2) * 512 + 1 * (y 1).val = (y 1).val; omega

/-- The staged block of the first matrix is the whole matrix. -/
theorem block_W1 (c : Dev nD) (t : Fin cfg0.N) : (iblk0 V c 1 t : S512x512.Idx → EReal) = arrW1 V c := by
  obtain ⟨-, -, e0, e1, -⟩ := idx_facts t
  funext y
  show arrW1 V c (((cfg0.win 1).blk t).view.emb y) = arrW1 V c y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The staged block of the second matrix is the whole matrix. -/
theorem block_W2 (c : Dev nD) (t : Fin cfg0.N) : (iblk0 V c 2 t : S512x512.Idx → EReal) = arrW2 V c := by
  obtain ⟨-, -, -, -, e0, e1, -⟩ := idx_facts t
  funext y
  show arrW2 V c (((cfg0.win 2).blk t).view.emb y) = arrW2 V c y
  refine congrArg _ (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- What the point writes back to the first result is the first product of the whole arrays, read through the block. -/
theorem flushed3_eq (c : Dev nD) (t : Fin cfg0.N) :
    (dat0 V c).flushed 3 t
      = ((cfg0.win 3).blk t).view.read (Elt Ideal) (k0_pay2 (F := Ideal) (arrX V c) (arrW1 V c)) := by
  show (cfg0.win 3).cut (grid0.coords t) ((dat0 V c).after 3 t) = _
  rw [after0_3]
  unfold out0_3
  rw [View.canon_unit_zero hz2]
  simp only [View.ld_unit_zero (S := S1536x512) hz2, View.ld_unit_zero (S := S512x512) hz2]
  obtain ⟨-, -, -, -, -, -, e0, e1, -⟩ := idx_facts t
  funext j
  show k0_pay2 (F := Ideal) (iblk0 V c 0 t) (iblk0 V c 1 t) j
    = k0_pay2 (F := Ideal) (arrX V c) (arrW1 V c) (((cfg0.win 3).blk t).view.emb j)
  have hj : ((cfg0.win 3).blk t).view.emb j = j := by
    funext a; apply Fin.ext
    match a with
    | ⟨0, _⟩ => show win0_3.index t (0 : Fin 2) * 1536 + 1 * (j 0).val = (j 0).val; omega
    | ⟨1, _⟩ => show win0_3.index t (1 : Fin 2) * 512 + 1 * (j 1).val = (j 1).val; omega
  exact (congrArg₂ (fun a b => k0_pay2 (F := Ideal) a b j) (block_X V c t) (block_W1 V c t)).trans (congrArg _ hj.symm)

/-- What the point writes back to the second result is the second product, read through the block. -/
theorem flushed4_eq (c : Dev nD) (t : Fin cfg0.N) :
    (dat0 V c).flushed 4 t
      = ((cfg0.win 4).blk t).view.read (Elt Ideal) (k0_pay3 (F := Ideal) (arrX V c) (arrW2 V c)) := by
  show (cfg0.win 4).cut (grid0.coords t) ((dat0 V c).after 4 t) = _
  rw [after0_4]
  unfold out0_4
  rw [View.canon_unit_zero hz2]
  simp only [View.ld_unit_zero (S := S1536x512) hz2, View.ld_unit_zero (S := S512x512) hz2]
  obtain ⟨-, -, -, -, -, -, -, -, e0, e1⟩ := idx_facts t
  funext j
  show k0_pay3 (F := Ideal) (iblk0 V c 0 t) (iblk0 V c 2 t) j
    = k0_pay3 (F := Ideal) (arrX V c) (arrW2 V c) (((cfg0.win 4).blk t).view.emb j)
  have hj : ((cfg0.win 4).blk t).view.emb j = j := by
    funext a; apply Fin.ext
    match a with
    | ⟨0, _⟩ => show win0_4.index t (0 : Fin 2) * 1536 + 1 * (j 0).val = (j 0).val; omega
    | ⟨1, _⟩ => show win0_4.index t (1 : Fin 2) * 512 + 1 * (j 1).val = (j 1).val; omega
  exact (congrArg₂ (fun a b => k0_pay3 (F := Ideal) a b j) (block_X V c t) (block_W2 V c t)).trans (congrArg _ hj.symm)

/-- An index of the first result is in the point's block iff each coordinate is in the block's range. -/
theorem mem_blk3 (t : Fin cfg0.N) (i : S1536x512.Idx) :
    i ∈ ((cfg0.win 3).blk t).view.set ↔ ∀ a : Fin 2, win0_3.index t a * S1536x512.size a ≤ (i a).val ∧ (i a).val < win0_3.index t a * S1536x512.size a + S1536x512.size a := by
  show i ∈ ((View.whole main_v5_0).slice (win0_3.rect t)).set ↔ _
  rw [View.set_slice_whole, Rect.mem_set_unit]
  exact Iff.rfl

theorem mem_blk4 (t : Fin cfg0.N) (i : S1536x512.Idx) :
    i ∈ ((cfg0.win 4).blk t).view.set ↔ ∀ a : Fin 2, win0_4.index t a * S1536x512.size a ≤ (i a).val ∧ (i a).val < win0_4.index t a * S1536x512.size a + S1536x512.size a := by
  show i ∈ ((View.whole main_v5_1).slice (win0_4.rect t)).set ↔ _
  rw [View.set_slice_whole, Rect.mem_set_unit]
  exact Iff.rfl

/-- The one block is the whole first result. -/
theorem cover3 (i : S1536x512.Idx) :
    ∃ t : Fin cfg0.N, (cfg0.win 3).flush t = true ∧ i ∈ ((cfg0.win 3).blk t).view.set := by
  have hi0 : (i 0).val < 1536 := (i 0).isLt
  have hi1 : (i 1).val < 512 := (i 1).isLt
  obtain ⟨-, -, -, -, -, -, e0, e1, -⟩ := idx_facts t0_0
  refine ⟨t0_0, flush0_3 t0_0, ?_⟩
  rw [mem_blk3]
  intro a
  match a with
  | ⟨0, _⟩ => show win0_3.index t0_0 (0 : Fin 2) * 1536 ≤ (i 0).val ∧ (i 0).val < win0_3.index t0_0 (0 : Fin 2) * 1536 + 1536; omega
  | ⟨1, _⟩ => show win0_3.index t0_0 (1 : Fin 2) * 512 ≤ (i 1).val ∧ (i 1).val < win0_3.index t0_0 (1 : Fin 2) * 512 + 512; omega

/-- The one block is the whole second result. -/
theorem cover4 (i : S1536x512.Idx) :
    ∃ t : Fin cfg0.N, (cfg0.win 4).flush t = true ∧ i ∈ ((cfg0.win 4).blk t).view.set := by
  have hi0 : (i 0).val < 1536 := (i 0).isLt
  have hi1 : (i 1).val < 512 := (i 1).isLt
  obtain ⟨-, -, -, -, -, -, -, -, e0, e1⟩ := idx_facts t0_0
  refine ⟨t0_0, flush0_4 t0_0, ?_⟩
  rw [mem_blk4]
  intro a
  match a with
  | ⟨0, _⟩ => show win0_4.index t0_0 (0 : Fin 2) * 1536 ≤ (i 0).val ∧ (i 0).val < win0_4.index t0_0 (0 : Fin 2) * 1536 + 1536; omega
  | ⟨1, _⟩ => show win0_4.index t0_0 (1 : Fin 2) * 512 ≤ (i 1).val ∧ (i 1).val < win0_4.index t0_0 (1 : Fin 2) * 512 + 512; omega

/-- After the region the first result array is the first product of the arrays the region found. -/
theorem final3 (c : Dev nD) : (dat0 V c).arrAt 3 cfg0.N = k0_pay2 (F := Ideal) (arrX V c) (arrW1 V c) :=
  (dat0 V c).arrAt_eq_of_cover 3 _ (fun t _ => flushed3_eq V c t) cover3

/-- After the region the second result array is the second product. -/
theorem final4 (c : Dev nD) : (dat0 V c).arrAt 4 cfg0.N = k0_pay3 (F := Ideal) (arrX V c) (arrW2 V c) :=
  (dat0 V c).arrAt_eq_of_cover 4 _ (fun t _ => flushed4_eq V c t) cover4

end Cert.KernelIdeal.ProductRegion

end
-- ==== Proof.KernelValue.lean ====
/-
  The kernel program's result, entry by entry.

  The host operations around the two regions only re-lay data: x is flattened to 1536 rows (row 16·i + r is x[i, r, ·]),
  W is cut into its two halves of 512 columns and each half transposed, the two products are unflattened back to
  [96, 16, 512], and the array of pairs is flattened into 9216 rows. Walking the program's fold back from the result
  buffer: the result at (n, r, h) is the pair array at (i, j, r, h) with i = n / 96 and j = n % 96, which the second
  region left at A[i, r, h] + B[j, r, h] + bias[h]; A[i, r, h] is the first product at row 16·i + r, column h, that is
  Σ_l L(x[i, r, l]) · W[h, l], and B[j, r, h] the second, Σ_l L(x[j, r, l]) · W[h, 512 + l].
-/
import proofs.«179011_j80934363726437_1_alg».proof.Proof.KernelRun
import proofs.«179011_j80934363726437_1_alg».proof.Proof.PairRegion
import proofs.«179011_j80934363726437_1_alg».proof.Proof.ProductRegion
import proofs.«179011_j80934363726437_1_alg».proof.Proof.Spec
import Idealize.ShloMosaic.Lib.StableHlo.Run
import Idealize.ShloMosaic.Lib.ValueLayout

set_option maxRecDepth 16384

noncomputable section

namespace Cert.KernelIdeal.KernelValue

open Cert.KernelIdeal Cert.KernelIdeal.Gen Idealize.ShloMosaic Idealize.ShloMosaic.TcCoe Idealize.SL.Sem Idealize.ShloMosaic.ValueIdx
open Idealize.ShloMosaic.StableHlo (after after_cons after_nil)

/-! ## The re-laying operations at an entry -/

/-- Row 16·i + r of the flattened x is x[i, r, ·]. -/
theorem flatten_rows_apply {α : Type} (x : (⟨3, ![96, 16, 512]⟩ : Shape).Idx → α)
    (h : (⟨3, ![96, 16, 512]⟩ : Shape).ShapeCasts ⟨2, ![1536, 512]⟩) (i : Fin 96) (r : Fin 16) (l : Fin 512) :
    shapeCast ⟨2, ![1536, 512]⟩ x h (ix2 (⟨i.val * 16 + r.val, by have := i.isLt; have := r.isLt; omega⟩ : Fin 1536) l) = x (ix3 i r l) := by
  refine shapeCast_apply x h _ (ix3 i r l) ?_
  rw [Shape.rowMajor_val_three, Shape.rowMajor_val_two]
  rfl

/-- Entry (i, r, h) of an unflattened product is the product at row 16·i + r, column h. -/
theorem unflatten_rows_apply {α : Type} (y : (⟨2, ![1536, 512]⟩ : Shape).Idx → α)
    (h : (⟨2, ![1536, 512]⟩ : Shape).ShapeCasts ⟨3, ![96, 16, 512]⟩) (i : Fin 96) (r : Fin 16) (e : Fin 512) :
    shapeCast ⟨3, ![96, 16, 512]⟩ y h (ix3 i r e) = y (ix2 (⟨i.val * 16 + r.val, by have := i.isLt; have := r.isLt; omega⟩ : Fin 1536) e) := by
  refine shapeCast_apply y h (ix3 i r e) _ ?_
  rw [Shape.rowMajor_val_three, Shape.rowMajor_val_two]
  rfl

/-- The first half of W, transposed, reads at (l, h) the entry W[h, l]. -/
theorem half1_apply (w : (⟨2, ![512, 1024]⟩ : Shape).Idx → EReal)
    (hs : (⟨2, ![512, 1024]⟩ : Shape).Slices ![0, 0] ⟨2, ![512, 512]⟩)
    (ht : (⟨2, ![512, 512]⟩ : Shape).Transposes [1, 0] ⟨2, ![512, 512]⟩) (l h : Fin 512) :
    transpose ⟨2, ![512, 512]⟩ [1, 0] (extractStridedSlice ⟨2, ![512, 512]⟩ ![0, 0] w hs) ht (ix2 l h)
      = w (ix2 h (⟨l.val, by have := l.isLt; omega⟩ : Fin 1024)) := by
  rw [transpose_ix2_apply]
  exact slice2_axis1_apply 0 w hs h l _ (Nat.zero_add _).symm

/-- The second half of W, transposed, reads at (l, h) the entry W[h, 512 + l]. -/
theorem half2_apply (w : (⟨2, ![512, 1024]⟩ : Shape).Idx → EReal)
    (hs : (⟨2, ![512, 1024]⟩ : Shape).Slices ![0, 512] ⟨2, ![512, 512]⟩)
    (ht : (⟨2, ![512, 512]⟩ : Shape).Transposes [1, 0] ⟨2, ![512, 512]⟩) (l h : Fin 512) :
    transpose ⟨2, ![512, 512]⟩ [1, 0] (extractStridedSlice ⟨2, ![512, 512]⟩ ![0, 512] w hs) ht (ix2 l h)
      = w (ix2 h (⟨512 + l.val, by have := l.isLt; omega⟩ : Fin 1024)) := by
  rw [transpose_ix2_apply]
  exact slice2_axis1_apply 512 w hs h l _ rfl

/-! ## The fold, read back from the result buffer -/

variable (m : (ℓ : Loc nD τ sig) → Buf (Elt Ideal) ℓ) (ρ : Dev nD → PrngReg)

/-- The three arguments as launched, at their literal types. -/
abbrev argX (c : Dev nD) : S96x16x512.Idx → EReal := m ((c : Thread nD τ).loc main_arg0)
abbrev argW (c : Dev nD) : S512x1024.Idx → EReal := m ((c : Thread nD τ).loc main_arg1)
abbrev argB (c : Dev nD) : S512.Idx → EReal := m ((c : Thread nD τ).loc main_arg2)

/-- The first region finds the flattened x. -/
theorem entry_rows (c : Dev nD) :
    ProductRegion.arrX (V1 m ρ) c = shapeCast S1536x512 (argX m c) Facts₀.shapeCasts_S96x16x512_S1536x512 := by
  show after hostOps0 (W0 m ρ c) (Proc.devRef .tc main_v0) = _
  simp only [after_cons, after_nil]
  rfl

/-- The first region finds the first half of W transposed. -/
theorem entry_half1 (c : Dev nD) :
    ProductRegion.arrW1 (V1 m ρ) c = transpose S512x512 [1, 0]
      (extractStridedSlice S512x512 ![0, 0] (argW m c) Facts₀.slices_S512x1024_S512x512_0_0) Facts₀.transposes_S512x512_S512x512_1_0 := by
  show after hostOps0 (W0 m ρ c) (Proc.devRef .tc main_v3) = _
  simp only [after_cons, after_nil]
  rfl

/-- The first region finds the second half of W transposed. -/
theorem entry_half2 (c : Dev nD) :
    ProductRegion.arrW2 (V1 m ρ) c = transpose S512x512 [1, 0]
      (extractStridedSlice S512x512 ![0, 512] (argW m c) Facts₀.slices_S512x1024_S512x512_0_512) Facts₀.transposes_S512x512_S512x512_1_0 := by
  show after hostOps0 (W0 m ρ c) (Proc.devRef .tc main_v4) = _
  simp only [after_cons, after_nil]
  rfl

/-- The second region finds the first product unflattened. -/
theorem entry_A (c : Dev nD) :
    PairRegion.arrA (V3 m ρ) c = shapeCast S96x16x512
      (k0_pay2 (F := Ideal) (ProductRegion.arrX (V1 m ρ) c) (ProductRegion.arrW1 (V1 m ρ) c)) Facts₀.shapeCasts_S1536x512_S96x16x512 := by
  rw [← ProductRegion.final3 (V1 m ρ) c, ← W2_arr m ρ c 3]
  show after hostOps1 (W2 m ρ c) (Proc.devRef .tc main_v6) = _
  simp only [after_cons, after_nil]
  rfl

/-- The second region finds the second product unflattened. -/
theorem entry_B (c : Dev nD) :
    PairRegion.arrB (V3 m ρ) c = shapeCast S96x16x512
      (k0_pay3 (F := Ideal) (ProductRegion.arrX (V1 m ρ) c) (ProductRegion.arrW2 (V1 m ρ) c)) Facts₀.shapeCasts_S1536x512_S96x16x512 := by
  rw [← ProductRegion.final4 (V1 m ρ) c, ← W2_arr m ρ c 4]
  show after hostOps1 (W2 m ρ c) (Proc.devRef .tc main_v7) = _
  simp only [after_cons, after_nil]
  rfl

/-- The second region finds the bias as launched: nothing before it writes that buffer. -/
theorem entry_bias (c : Dev nD) : PairRegion.arrBias (V3 m ρ) c = argB m c := by
  show after hostOps1 (W2 m ρ c) (Proc.devRef .tc main_arg2) = _
  have h1 : after hostOps1 (W2 m ρ c) (Proc.devRef .tc main_arg2) = W2 m ρ c (Proc.devRef .tc main_arg2) := by
    simp only [after_cons, after_nil]
    rfl
  have h2 : W2 m ρ c (Proc.devRef .tc main_arg2) = W1 m ρ c (Proc.devRef .tc main_arg2) := W2_of_ne m ρ c main_arg2 (by decide)
  have h3 : W1 m ρ c (Proc.devRef .tc main_arg2) = m ((c : Thread nD τ).loc main_arg2) := by
    show after hostOps0 (W0 m ρ c) (Proc.devRef .tc main_arg2) = _
    simp only [after_cons, after_nil]
    rfl
  exact h1.trans (h2.trans h3)

/-- The result buffer ends at the flattening of what the second region left. -/
theorem result_fold (c : Dev nD) :
    (W5 m ρ c (Proc.devRef .tc main_v9) : S9216x16x512.Idx → EReal)
      = shapeCast S9216x16x512 (PairRegion.pairSum (PairRegion.arrA (V3 m ρ) c) (PairRegion.arrB (V3 m ρ) c) (PairRegion.arrBias (V3 m ρ) c))
          Facts₀.shapeCasts_S96x96x16x512_S9216x16x512 := by
  rw [← PairRegion.final (V3 m ρ) c, ← W4_arr m ρ c 3]
  show after hostOps2 (W4 m ρ c) (Proc.devRef .tc main_v9) = _
  simp only [after_cons, after_nil]
  rfl

/-- The kernel program's result is the shared formula of the launch arguments, entry by entry. -/
theorem value (c : Dev nD) :
    (W5 m ρ c (Proc.devRef .tc main_v9) : S9216x16x512.Idx → EReal) = Cert.Spec.result (argX m c) (argW m c) (argB m c) := by
  rw [result_fold]
  funext n
  obtain ⟨n0, r, h, rfl⟩ : ∃ (n0 : Fin 9216) (r : Fin 16) (h : Fin 512), n = ix3 n0 r h := ⟨n 0, n 1, n 2, eq_ix3 n⟩
  refine (Cert.Spec.flatten_apply _ _ n0 r h).trans ?_
  show (PairRegion.arrA (V3 m ρ) c (ix3 (Cert.Spec.fst96 n0) r h) + PairRegion.arrB (V3 m ρ) c (ix3 (Cert.Spec.snd96 n0) r h))
      + PairRegion.arrBias (V3 m ρ) c (ix1 h) = Cert.Spec.entry (argX m c) (argW m c) (argB m c) (Cert.Spec.fst96 n0) (Cert.Spec.snd96 n0) r h
  unfold Cert.Spec.entry
  rw [entry_A, entry_B, entry_bias, unflatten_rows_apply, unflatten_rows_apply, ProductRegion.product_apply, ProductRegion.product_apply',
    entry_rows, entry_half1, entry_half2]
  refine congrArg₂ (· + ·) (congrArg₂ (· + ·) (Finset.sum_congr rfl fun l _ => ?_) (Finset.sum_congr rfl fun l _ => ?_)) rfl
  · rw [flatten_rows_apply, half1_apply]
  · rw [flatten_rows_apply, half2_apply]

end Cert.KernelIdeal.KernelValue

end
-- ==== Proof.RefRun.lean ====
/-
  The reference program run as a straight line of host operations.

  The reference builds, for every pair (i, j) of the 96 leading rows of x, the row x[i] followed by the row x[j]
  (two broadcasts of x laid side by side along the last axis), applies the leaky rectifier to every entry
  (the entry itself where it is at least zero, a tenth of it elsewhere: a compare, a product and a select, which the
  program spells in two outlined functions), contracts the 1024 entries of each row with the rows of W, adds the
  bias along the last axis and flattens the pair (i, j) into one axis of 9216.

  The outlined functions execute their bodies on the call's own buffers, so the whole program is one list of
  eighteen operations; the run of such a list ends with every buffer at the fold of the operations over the launch
  contents. `out` names the fold's value at the result buffer as one term of the three arguments.
-/
import proofs.«179011_j80934363726437_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's eighteen operations in order, the two outlined functions' bodies at their call sites. -/
abbrev ops : List (HloOp τ sig (Elt F)) :=
  [ unary main_arg0 main_v0 (broadcastInDim S96x1x16x512 ![0, 2, 3] bcast_S96x16x512_S96x1x16x512_0_2_3 : (⟨S96x16x512, .f32⟩ : BufTy).Contents (Elt F) → (⟨S96x1x16x512, .f32⟩ : BufTy).Contents (Elt F)),
    unary main_v0 main_v1 (broadcastInDim S96x96x16x512 ![0, 1, 2, 3] bcast_S96x1x16x512_S96x96x16x512_0_1_2_3 : (⟨S96x1x16x512, .f32⟩ : BufTy).Contents (Elt F) → (⟨S96x96x16x512, .f32⟩ : BufTy).Contents (Elt F)),
    unary main_arg0 main_v2 (broadcastInDim S1x96x16x512 ![1, 2, 3] bcast_S96x16x512_S1x96x16x512_1_2_3 : (⟨S96x16x512, .f32⟩ : BufTy).Contents (Elt F) → (⟨S1x96x16x512, .f32⟩ : BufTy).Contents (Elt F)),
    unary main_v2 main_v3 (broadcastInDim S96x96x16x512 ![0, 1, 2, 3] bcast_S1x96x16x512_S96x96x16x512_0_1_2_3 : (⟨S1x96x16x512, .f32⟩ : BufTy).Contents (Elt F) → (⟨S96x96x16x512, .f32⟩ : BufTy).Contents (Elt F)),
    binary main_v1 main_v3 main_v4 ((fun a b => concatenate S96x96x16x1024 3 [⟨S96x96x16x512, a⟩, ⟨S96x96x16x512, b⟩] concatenates_S96x96x16x512_S96x96x16x512_S96x96x16x1024_d3) : (⟨S96x96x16x512, .f32⟩ : BufTy).Contents (Elt F) → (⟨S96x96x16x512, .f32⟩ : BufTy).Contents (Elt F) → (⟨S96x96x16x1024, .f32⟩ : BufTy).Contents (Elt F)),
    nullary main_cst (constant S_ .f32 0x3DCCCCCD#32),
    TRef.nullary main_call0.cst (constant S_ .f32 0x00000000#32),
    TRef.unary main_call0.cst main_call0.v0 (broadcastInDim S96x96x16x1024 ![] bcast_S_S96x96x16x1024),
    TRef.binary (.of main_v4) main_call0.v0 main_call0.v1 (cmpf .oge),
    TRef.unary (.of main_cst) main_call0.v2 id,
    TRef.unary main_call0.v2 main_call0.v3 (broadcastInDim S96x96x16x1024 ![] bcast_S_S96x96x16x1024),
    TRef.binary main_call0.v3 (.of main_v4) main_call0.v4 mulf,
    TRef.ternary main_call0.v1 (.of main_v4) main_call0.v4 main_call0.call0.v0 select,
    binary main_v5 main_arg1 main_v6 ((fun l r => Host.dotGeneral dot_S96x96x16x1024_S512x1024_S96x96x16x512_3_1_012_0_n_n none l r) : (⟨S96x96x16x1024, .f32⟩ : BufTy).Contents (Elt F) → (⟨S512x1024, .f32⟩ : BufTy).Contents (Elt F) → (⟨S96x96x16x512, .f32⟩ : BufTy).Contents (Elt F)),
    unary main_arg2 main_v7 (broadcastInDim S1x1x1x512 ![3] bcast_S512_S1x1x1x512_3 : (⟨S512, .f32⟩ : BufTy).Contents (Elt F) → (⟨S1x1x1x512, .f32⟩ : BufTy).Contents (Elt F)),
    unary main_v7 main_v8 (broadcastInDim S96x96x16x512 ![0, 1, 2, 3] bcast_S1x1x1x512_S96x96x16x512_0_1_2_3 : (⟨S1x1x1x512, .f32⟩ : BufTy).Contents (Elt F) → (⟨S96x96x16x512, .f32⟩ : BufTy).Contents (Elt F)),
    binary main_v6 main_v8 main_v9 (addf : (⟨S96x96x16x512, .f32⟩ : BufTy).Contents (Elt F) → (⟨S96x96x16x512, .f32⟩ : BufTy).Contents (Elt F) → (⟨S96x96x16x512, .f32⟩ : BufTy).Contents (Elt F)),
    reshape main_v9 main_v10 rfl shapeCasts_S96x96x16x512_S9216x16x512 ]

/-- The program is that list run in order: the outlined functions unfold at their calls. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., unary_bufs_sub .., unary_bufs_sub .., binary_bufs_sub .., reshape_bufs_sub ..⟩

/-- The pair rows: x[i] followed by x[j] along the last axis. -/
def pairRows (x : (⟨S96x16x512, .f32⟩ : BufTy).Contents (Elt F)) : (⟨S96x96x16x1024, .f32⟩ : BufTy).Contents (Elt F) :=
  concatenate S96x96x16x1024 3
    [⟨S96x96x16x512, broadcastInDim S96x96x16x512 ![0, 1, 2, 3] bcast_S96x1x16x512_S96x96x16x512_0_1_2_3 (broadcastInDim S96x1x16x512 ![0, 2, 3] bcast_S96x16x512_S96x1x16x512_0_2_3 x)⟩,
     ⟨S96x96x16x512, broadcastInDim S96x96x16x512 ![0, 1, 2, 3] bcast_S1x96x16x512_S96x96x16x512_0_1_2_3 (broadcastInDim S1x96x16x512 ![1, 2, 3] bcast_S96x16x512_S1x96x16x512_1_2_3 x)⟩]
    concatenates_S96x96x16x512_S96x96x16x512_S96x96x16x1024_d3

/-- The leaky rectifier as the program spells it: the entry where it is at least zero, a tenth of it elsewhere. -/
def rectified (h : (⟨S96x96x16x1024, .f32⟩ : BufTy).Contents (Elt F)) : (⟨S96x96x16x1024, .f32⟩ : BufTy).Contents (Elt F) :=
  select (cmpf .oge h (broadcastInDim S96x96x16x1024 ![] bcast_S_S96x96x16x1024 (constant (F := F) S_ .f32 0x00000000#32))) h
    (mulf (broadcastInDim S96x96x16x1024 ![] bcast_S_S96x96x16x1024 (id (constant (F := F) S_ .f32 0x3DCCCCCD#32))) h)

/-- The reference's result as one term of its three arguments. -/
def out (x : (⟨S96x16x512, .f32⟩ : BufTy).Contents (Elt F)) (w : (⟨S512x1024, .f32⟩ : BufTy).Contents (Elt F))
    (b : (⟨S512, .f32⟩ : BufTy).Contents (Elt F)) : (⟨S9216x16x512, .f32⟩ : BufTy).Contents (Elt F) :=
  shapeCast S9216x16x512
    (addf (Host.dotGeneral dot_S96x96x16x1024_S512x1024_S96x96x16x512_3_1_012_0_n_n none (rectified (pairRows x)) w)
      (broadcastInDim S96x96x16x512 ![0, 1, 2, 3] bcast_S1x1x1x512_S96x96x16x512_0_1_2_3 (broadcastInDim S1x1x1x512 ![3] bcast_S512_S1x1x1x512_3 b)))
    shapeCasts_S96x96x16x512_S9216x16x512

attribute [local irreducible] concatenate broadcastInDim shapeCast in
/-- The fold of the operations at the result buffer is `out` of the arguments' contents: the fold unrolled, every
    operation's result read where it was written, the typed references' casts the identity at these references. -/
theorem out_eq (V : Valuation τ sig (Elt F)) :
    after ops V (main_v10 : DevRef τ sig)
      = out (V (main_arg0 : DevRef τ sig)) (V (main_arg1 : DevRef τ sig)) (V (main_arg2 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem arg2_eq (V : Valuation τ sig (Elt F)) : after ops V (main_arg2 : DevRef τ sig) = V (main_arg2 : DevRef τ sig) := by
  simp only [after_cons, after_nil]
  rfl

/-- Every weakly fair execution of the reference ends with the result buffer at `out` of the launch arguments, the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v10).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.LibContractLast.lean ====
/-
  A rank-4 array contracted along its last axis with the rows of a matrix, read at an index, at the ideal values.

  For an array A of shape [a, b, c, k] and a matrix B of n rows of k entries, the product that contracts A's last axis
  with B's last axis has, at (p, q, r, h), the entry Σ_l A(p, q, r, l) · B(h, l): A is read along its last axis with the
  three leading coordinates of the result, B along row h. At the ideal values the host's product reads exactly that sum,
  whatever the order it was scheduled in. The six coordinate lemmas say where each operand is read.
-/
import Idealize.ShloMosaic.PureOps.Ideal.Laws
import Idealize.ShloMosaic.Lib.ValueIdx

noncomputable section

namespace Idealize.ShloMosaic.ContractLast

open Idealize.ShloMosaic Idealize.ShloMosaic.ValueIdx

variable {a b c k n : ℕ}

/-- The dimension numbers `[3] × [1]`, kept axes `[0, 1, 2]` and `[0]`, no batch axis. -/
abbrev dims (w : DotDims.WF ⟨4, ![a, b, c, k]⟩ ⟨2, ![n, k]⟩ ⟨4, ![a, b, c, n]⟩ [3] [1] [0, 1, 2] [0] [] []) :
    DotDims ⟨4, ![a, b, c, k]⟩ ⟨2, ![n, k]⟩ ⟨4, ![a, b, c, n]⟩ := ⟨[3], [1], [0, 1, 2], [0], [], [], w⟩

/-- The left operand's first kept axis reads the result's first coordinate. -/
theorem lhs_0 (w : DotDims.WF ⟨4, ![a, b, c, k]⟩ ⟨2, ![n, k]⟩ ⟨4, ![a, b, c, n]⟩ [3] [1] [0, 1, 2] [0] [] [])
    (j : (⟨4, ![a, b, c, n]⟩ : Shape).Idx) (z : (dims w).contr.Idx) :
    ((dims w).lhsIdx j z 0).val = (j 0).val := by
  unfold DotDims.lhsIdx
  rw [dif_neg (show ¬(0 : Fin 4) ∈ (dims w).lhsBatch from List.not_mem_nil),
    dif_pos (show (0 : Fin 4) ∈ (dims w).lhsNonContracting from (by decide : (0 : Fin 4) ∈ ([0, 1, 2] : List (Fin 4))))]
  rfl

/-- The left operand's second kept axis reads the result's second coordinate. -/
theorem lhs_1 (w : DotDims.WF ⟨4, ![a, b, c, k]⟩ ⟨2, ![n, k]⟩ ⟨4, ![a, b, c, n]⟩ [3] [1] [0, 1, 2] [0] [] [])
    (j : (⟨4, ![a, b, c, n]⟩ : Shape).Idx) (z : (dims w).contr.Idx) :
    ((dims w).lhsIdx j z 1).val = (j 1).val := by
  unfold DotDims.lhsIdx
  rw [dif_neg (show ¬(1 : Fin 4) ∈ (dims w).lhsBatch from List.not_mem_nil),
    dif_pos (show (1 : Fin 4) ∈ (dims w).lhsNonContracting from (by decide : (1 : Fin 4) ∈ ([0, 1, 2] : List (Fin 4))))]
  rfl

/-- The left operand's third kept axis reads the result's third coordinate. -/
theorem lhs_2 (w : DotDims.WF ⟨4, ![a, b, c, k]⟩ ⟨2, ![n, k]⟩ ⟨4, ![a, b, c, n]⟩ [3] [1] [0, 1, 2] [0] [] [])
    (j : (⟨4, ![a, b, c, n]⟩ : Shape).Idx) (z : (dims w).contr.Idx) :
    ((dims w).lhsIdx j z 2).val = (j 2).val := by
  unfold DotDims.lhsIdx
  rw [dif_neg (show ¬(2 : Fin 4) ∈ (dims w).lhsBatch from List.not_mem_nil),
    dif_pos (show (2 : Fin 4) ∈ (dims w).lhsNonContracting from (by decide : (2 : Fin 4) ∈ ([0, 1, 2] : List (Fin 4))))]
  rfl

/-- The left operand's contracted axis reads the contraction's coordinate. -/
theorem lhs_3 (w : DotDims.WF ⟨4, ![a, b, c, k]⟩ ⟨2, ![n, k]⟩ ⟨4, ![a, b, c, n]⟩ [3] [1] [0, 1, 2] [0] [] [])
    (j : (⟨4, ![a, b, c, n]⟩ : Shape).Idx) (z : (dims w).contr.Idx) :
    ((dims w).lhsIdx j z 3).val = (z ⟨0, Nat.one_pos⟩).val :=
  (dims w).lhsIdx_val_of_single rfl j z

/-- The right operand's kept axis reads the result's last coordinate. -/
theorem rhs_0 (w : DotDims.WF ⟨4, ![a, b, c, k]⟩ ⟨2, ![n, k]⟩ ⟨4, ![a, b, c, n]⟩ [3] [1] [0, 1, 2] [0] [] [])
    (j : (⟨4, ![a, b, c, n]⟩ : Shape).Idx) (z : (dims w).contr.Idx) :
    ((dims w).rhsIdx j z 0).val = (j 3).val := by
  unfold DotDims.rhsIdx
  rw [dif_neg (show ¬(0 : Fin 2) ∈ (dims w).rhsBatch from List.not_mem_nil),
    dif_pos (show (0 : Fin 2) ∈ (dims w).rhsNonContracting from List.mem_singleton.mpr rfl)]
  rfl

/-- The right operand's contracted axis reads the contraction's coordinate. -/
theorem rhs_1 (w : DotDims.WF ⟨4, ![a, b, c, k]⟩ ⟨2, ![n, k]⟩ ⟨4, ![a, b, c, n]⟩ [3] [1] [0, 1, 2] [0] [] [])
    (j : (⟨4, ![a, b, c, n]⟩ : Shape).Idx) (z : (dims w).contr.Idx) :
    ((dims w).rhsIdx j z 1).val = (z ⟨0, Nat.one_pos⟩).val :=
  (dims w).rhsIdx_val_of_single rfl j z

/-- The contraction's sum, re-indexed by the contracted coordinate: the left operand is read along its last axis at
    `(p, q, r, ·)`, the right one along row `h`. -/
theorem sum_contr (w : DotDims.WF ⟨4, ![a, b, c, k]⟩ ⟨2, ![n, k]⟩ ⟨4, ![a, b, c, n]⟩ [3] [1] [0, 1, 2] [0] [] [])
    (A : (⟨4, ![a, b, c, k]⟩ : Shape).Idx → EReal) (B : (⟨2, ![n, k]⟩ : Shape).Idx → EReal)
    (p : Fin a) (q : Fin b) (r : Fin c) (h : Fin n) :
    ∑ z : (dims w).contr.Idx, A ((dims w).lhsIdx (ix4 p q r h) z) * B ((dims w).rhsIdx (ix4 p q r h) z)
      = ∑ l : Fin k, A (ix4 p q r l) * B (ix2 h l) := by
  rw [← Equiv.sum_comp (contrEquiv1 (dims w) k rfl rfl).symm]
  refine Finset.sum_congr rfl fun l _ => ?_
  have c2 := contrEquiv1_symm_val (dims w) k rfl rfl l
  have l2 : (dims w).lhsIdx (ix4 p q r h) ((contrEquiv1 (dims w) k rfl rfl).symm l) = ix4 p q r l := by
    funext ax; apply Fin.ext
    match ax with
    | ⟨0, _⟩ => exact lhs_0 w _ _
    | ⟨1, _⟩ => exact lhs_1 w _ _
    | ⟨2, _⟩ => exact lhs_2 w _ _
    | ⟨3, _⟩ => exact (lhs_3 w _ _).trans c2
  have r2 : (dims w).rhsIdx (ix4 p q r h) ((contrEquiv1 (dims w) k rfl rfl).symm l) = ix2 h l := by
    funext ax; apply Fin.ext
    match ax with
    | ⟨0, _⟩ => exact rhs_0 w _ _
    | ⟨1, _⟩ => exact (rhs_1 w _ _).trans c2
  rw [l2, r2]

/-- The host's product of an [a, b, c, k] array with the rows of an [n, k] matrix, read at `(p, q, r, h)`. -/
theorem dotGeneral_apply {φ₁ φ₂ : FTy}
    (w : DotDims.WF ⟨4, ![a, b, c, k]⟩ ⟨2, ![n, k]⟩ ⟨4, ![a, b, c, n]⟩ [3] [1] [0, 1, 2] [0] [] [])
    (prec : Option ContractPrecision) (sched : HostSchedule)
    (A : FVec Ideal ⟨4, ![a, b, c, k]⟩ φ₁) (B : FVec Ideal ⟨2, ![n, k]⟩ φ₂) (p : Fin a) (q : Fin b) (r : Fin c) (h : Fin n) :
    FloatOps.dotGeneral (⟨[3], [1], [0, 1, 2], [0], [], [], w⟩ : DotDims _ _ _) prec sched A B (ix4 p q r h)
      = ∑ l : Fin k, A (ix4 p q r l) * B (ix2 h l) := by
  rw [Ideal.dotGeneral_apply]
  exact sum_contr w A B p q r h

end Idealize.ShloMosaic.ContractLast

end
-- ==== Proof.RefValue.lean ====
/-
  The reference's result, entry by entry.

  Entry (n, r, c) of the flattened result is entry (i, j, r, c) of the array of pairs with i = n / 96, j = n % 96: the
  contraction over the 1024 entries of the rectified pair row with row c of W, plus the bias at c. The pair row reads
  x[i, r, ·] on its first 512 entries and x[j, r, ·] on its last 512, and the rectifier acts entry by entry, so the sum
  over 1024 splits into the two sums over 512 of the shared formula.
-/
import proofs.«179011_j80934363726437_1_alg».proof.Proof.RefRun
import proofs.«179011_j80934363726437_1_alg».proof.Proof.Spec
import proofs.«179011_j80934363726437_1_alg».proof.Proof.LibContractLast
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.RefRun Idealize.ShloMosaic Idealize.ShloMosaic.TcCoe Idealize.ShloMosaic.ValueIdx

/-- The first half of the pair row at (i, j, r) is the row x[i, r, ·]. -/
theorem pairRows_left (x : FVec Ideal S96x16x512 .f32) (i j : Fin 96) (r : Fin 16) (l : Fin 512) :
    pairRows (F := Ideal) x (ix4 i j r (⟨l.val, by have := l.isLt; omega⟩ : Fin 1024)) = x (ix3 i r l) := by
  unfold pairRows
  refine (concatenate_pair_apply_left (t := S96x96x16x1024) (s₁ := S96x96x16x512) (s₂ := S96x96x16x512) (3 : Fin 4) _ _ _ (ix4 i j r (⟨l.val, by have := l.isLt; omega⟩ : Fin 1024)) rfl (ix4 (n0 := 96) (n1 := 96) (n2 := 16) (n3 := 512) i j r l) ?_).trans ?_
  · intro b
    match b with
    | ⟨0, _⟩ => rfl
    | ⟨1, _⟩ => rfl
    | ⟨2, _⟩ => rfl
    | ⟨3, _⟩ => rfl
  · refine (broadcastInDim_apply _ _ _ (ix4 i j r l) (ix4 i (0 : Fin 1) r l) ?_).trans ?_
    · intro a
      match a with
      | ⟨0, _⟩ => rfl
      | ⟨1, _⟩ => rfl
      | ⟨2, _⟩ => rfl
      | ⟨3, _⟩ => rfl
    · refine broadcastInDim_apply _ _ x (ix4 i (0 : Fin 1) r l) (ix3 i r l) ?_
      intro a
      match a with
      | ⟨0, _⟩ => rfl
      | ⟨1, _⟩ => rfl
      | ⟨2, _⟩ => rfl

/-- The second half of the pair row at (i, j, r) is the row x[j, r, ·]. -/
theorem pairRows_right (x : FVec Ideal S96x16x512 .f32) (i j : Fin 96) (r : Fin 16) (l : Fin 512) :
    pairRows (F := Ideal) x (ix4 i j r (⟨512 + l.val, by have := l.isLt; omega⟩ : Fin 1024)) = x (ix3 j r l) := by
  unfold pairRows
  refine (concatenate_pair_apply_right (t := S96x96x16x1024) (s₁ := S96x96x16x512) (s₂ := S96x96x16x512) (3 : Fin 4) _ _ _ (ix4 i j r (⟨512 + l.val, by have := l.isLt; omega⟩ : Fin 1024)) rfl rfl (ix4 (n0 := 96) (n1 := 96) (n2 := 16) (n3 := 512) i j r l) ?_ ?_).trans ?_
  · intro b hb
    match b, hb with
    | ⟨0, _⟩, _ => rfl
    | ⟨1, _⟩, _ => rfl
    | ⟨2, _⟩, _ => rfl
    | ⟨3, _⟩, hb => exact absurd rfl hb
  · show l.val + 512 = 512 + l.val
    omega
  · refine (broadcastInDim_apply _ _ _ (ix4 i j r l) (ix4 (0 : Fin 1) j r l) ?_).trans ?_
    · intro a
      match a with
      | ⟨0, _⟩ => rfl
      | ⟨1, _⟩ => rfl
      | ⟨2, _⟩ => rfl
      | ⟨3, _⟩ => rfl
    · refine broadcastInDim_apply _ _ x (ix4 (0 : Fin 1) j r l) (ix3 j r l) ?_
      intro a
      match a with
      | ⟨0, _⟩ => rfl
      | ⟨1, _⟩ => rfl
      | ⟨2, _⟩ => rfl

/-- The rectified array at an entry is the rectifier of the entry. -/
theorem rectified_apply (h : FVec Ideal S96x96x16x1024 .f32) (y : S96x96x16x1024.Idx) :
    rectified (F := Ideal) h y = Cert.Spec.lrelu (h y) := by
  unfold rectified
  show Scalar.select (Ideal.cmp .oge (h y) (Ideal.ofBits .f32 0x00000000#32)) (h y) (Ideal.ofBits .f32 0x3DCCCCCD#32 * h y) = _
  rw [Ideal.ofBits_zero_f32]
  exact Cert.Spec.lrelu_host (h y)

/-- The bias laid along the last axis and repeated over the three leading ones reads, at (i, j, r, c), the bias at c. -/
theorem bias_apply (b : FVec Ideal S512 .f32) (i j : Fin 96) (r : Fin 16) (c : Fin 512) :
    broadcastInDim S96x96x16x512 ![0, 1, 2, 3] Facts₀.bcast_S1x1x1x512_S96x96x16x512_0_1_2_3
        (broadcastInDim S1x1x1x512 ![3] Facts₀.bcast_S512_S1x1x1x512_3 b) (ix4 i j r c) = b (ix1 c) := by
  refine (broadcastInDim_apply _ _ _ (ix4 i j r c) (ix4 (0 : Fin 1) (0 : Fin 1) (0 : Fin 1) c) ?_).trans ?_
  · intro a
    match a with
    | ⟨0, _⟩ => rfl
    | ⟨1, _⟩ => rfl
    | ⟨2, _⟩ => rfl
    | ⟨3, _⟩ => rfl
  · refine broadcastInDim_apply _ _ b (ix4 (0 : Fin 1) (0 : Fin 1) (0 : Fin 1) c) (ix1 c) ?_
    intro a
    match a with
    | ⟨0, _⟩ => rfl

/-- The reference's result is the shared formula, entry by entry. -/
theorem out_eq (x : FVec Ideal S96x16x512 .f32) (w : FVec Ideal S512x1024 .f32) (b : FVec Ideal S512 .f32) :
    out (F := Ideal) x w b = Cert.Spec.result x w b := by
  funext n
  obtain ⟨n0, r, c, rfl⟩ : ∃ (n0 : Fin 9216) (r : Fin 16) (c : Fin 512), n = ix3 n0 r c := ⟨n 0, n 1, n 2, eq_ix3 n⟩
  unfold out
  refine (Cert.Spec.flatten_apply _ _ n0 r c).trans ?_
  refine (addf_apply _ _ _).trans ?_
  show _ = Cert.Spec.entry x w b (Cert.Spec.fst96 n0) (Cert.Spec.snd96 n0) r c
  unfold Cert.Spec.entry
  refine congrArg₂ (· + ·) ?_ (bias_apply b _ _ r c)
  refine (ContractLast.dotGeneral_apply Facts₀.dot_S96x96x16x1024_S512x1024_S96x96x16x512_3_1_012_0_n_n_wf none _ _ _
    (Cert.Spec.fst96 n0) (Cert.Spec.snd96 n0) r c).trans ?_
  rw [Cert.Spec.sum_halves]
  refine congrArg₂ (· + ·) (Finset.sum_congr rfl fun l _ => ?_) (Finset.sum_congr rfl fun l _ => ?_)
  · rw [rectified_apply, pairRows_left]
  · rw [rectified_apply, pairRows_right]

end Cert.ReferenceIdeal.RefValue

end
-- ==== Proof.lean ====
/-
  The pairwise layer: for every pair (i, j) of the 96 rows of x, a linear layer applied to the leaky rectifier of the
  row x[i] followed by the row x[j].

  The kernel program uses that the layer is linear and the rectifier acts entry by entry: with W cut into its two halves
  of 512 columns, the layer of the joined row is the layer of x[i] through the first half plus the layer of x[j] through
  the second half. It computes the two families of 96 products once (first region), and then adds them pair by pair
  together with the bias (second region, a 6 × 6 grid of blocks). The reference joins the rows, rectifies, and contracts
  the 1024 entries in one sum. Over the extended reals the two are the same function of the arguments: a sum over 1024
  consecutive entries is the sum of its two halves, and the two spellings of the rectifier (strictly above zero against
  at least zero) agree because both give 0 at 0. Nothing here needs the inputs to be finite.

  The three frames are the programs' runs with the result dropped; the ideal pass rewrote nothing, so there is nothing
  to preserve; the value claim sets the two runs side by side, each ending at the shared formula `Cert.Spec.result` of
  its arguments.
-/
import proofs.«179011_j80934363726437_1_alg».proof.Defs
import proofs.«179011_j80934363726437_1_alg».proof.Proof.Gen.Kernel
import proofs.«179011_j80934363726437_1_alg».proof.Proof.Gen.Kernel.Skeleton
import proofs.«179011_j80934363726437_1_alg».proof.Proof.Gen.Kernel.Launch
import proofs.«179011_j80934363726437_1_alg».proof.Proof.Gen.Kernel.Points
import proofs.«179011_j80934363726437_1_alg».proof.Proof.Gen.Kernel.Frame
import proofs.«179011_j80934363726437_1_alg».proof.Proof.Gen.KernelIdeal
import proofs.«179011_j80934363726437_1_alg».proof.Proof.Gen.KernelIdeal.Skeleton
import proofs.«179011_j80934363726437_1_alg».proof.Proof.Gen.KernelIdeal.Launch
import proofs.«179011_j80934363726437_1_alg».proof.Proof.Gen.KernelIdeal.Points
import proofs.«179011_j80934363726437_1_alg».proof.Proof.Gen.KernelIdeal.Frame
import proofs.«179011_j80934363726437_1_alg».proof.Proof.Gen.ReferenceIdeal
import proofs.«179011_j80934363726437_1_alg».proof.Proof.Gen.Pre_finite_inputs
import proofs.«179011_j80934363726437_1_alg».proof.Proof.KernelRun
import proofs.«179011_j80934363726437_1_alg».proof.Proof.KernelValue
import proofs.«179011_j80934363726437_1_alg».proof.Proof.RefRun
import proofs.«179011_j80934363726437_1_alg».proof.Proof.RefValue
import Idealize.ShloMosaic.Adequacy
import Idealize.ShloMosaic.Init

noncomputable section

namespace Cert.Proof

open Idealize.ShloMosaic Idealize.SL.Sem

/-- The kernel program as printed runs to its end with the arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both programs end with the result at the shared formula of arguments that agree. -/
theorem algebraic : Cert.algebraic_KernelIdeal_ReferenceIdeal := by
  intro m ρ m' ρ' _ hagree
  refine ⟨fun c => Cert.Spec.result (Cert.KernelIdeal.KernelValue.argX m c) (Cert.KernelIdeal.KernelValue.argW m c)
    (Cert.KernelIdeal.KernelValue.argB m c), ?_, ?_⟩
  · exact (θ_run Cert.KernelIdeal.defs _ _).mono
      (fun _ h c => ⟨(h c).1.trans (Cert.KernelIdeal.KernelValue.value m ρ c), (h c).2⟩)
      (Cert.KernelIdeal.Gen.run_value (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2]
    exact Cert.ReferenceIdeal.RefValue.out_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
